-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x1024 .f32) (main_arg1 : IVec S2048 32) (main_arg2 : IVec S2048 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 0#32
  let main_v8 : IVec S2048 32 := broadcastInDim S2048 ![] bcast_S_S2048 main_c_2
  let main_v9 : IVec S2048 1 := cmpi .sge main_arg2 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  main_v11
-- ==== Kernel.lean ====
abbrev S16384x1024 : Shape := ⟨2, ![16384, 1024]⟩
abbrev S2048 : Shape := ⟨1, ![2048]⟩
abbrev S1024 : Shape := ⟨1, ![1024]⟩
abbrev S2048x1 : Shape := ⟨2, ![2048, 1]⟩
abbrev S2048x2 : Shape := ⟨2, ![2048, 2]⟩
abbrev S4096 : Shape := ⟨1, ![4096]⟩
abbrev S_ : Shape := ⟨0, ![]⟩
abbrev S1024x1 : Shape := ⟨2, ![1024, 1]⟩
abbrev S1x4096 : Shape := ⟨2, ![1, 4096]⟩
abbrev S1024x4096 : Shape := ⟨2, ![1024, 4096]⟩
abbrev S16384x4096 : Shape := ⟨2, ![16384, 4096]⟩
abbrev S256x1024 : Shape := ⟨2, ![256, 1024]⟩
abbrev S256x4096 : Shape := ⟨2, ![256, 4096]⟩
abbrev S16384x2048x2 : Shape := ⟨3, ![16384, 2048, 2]⟩

abbrev nBuf : Space → Nat
  | .hbm => 24
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2048, .i32⟩
  | .hbm, ⟨2, _⟩ => ⟨S2048, .i32⟩
  | .hbm, ⟨3, _⟩ => ⟨S1024, .i32⟩
  | .hbm, ⟨4, _⟩ => ⟨S2048x1, .i32⟩
  | .hbm, ⟨5, _⟩ => ⟨S2048x1, .i32⟩
  | .hbm, ⟨6, _⟩ => ⟨S2048x2, .i32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S1024x1, .i32⟩
  | .hbm, ⟨17, _⟩ => ⟨S1x4096, .i32⟩
  | .hbm, ⟨18, _⟩ => ⟨S1024x4096, .i32⟩
  | .hbm, ⟨19, _⟩ => ⟨S1024x4096, .i32⟩
  | .hbm, ⟨20, _⟩ => ⟨S1024x4096, .i1⟩
  | .hbm, ⟨21, _⟩ => ⟨S1024x4096, .bf16⟩
  | .hbm, ⟨22, _⟩ => ⟨S16384x4096, .f32⟩
  | .hbm, ⟨23, _⟩ => ⟨S16384x2048x2, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S256x4096, .f32⟩
  | .local _ .vmem, ⟨4, _⟩ => ⟨S256x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048x2_S4096 : S2048x2.ShapeCasts S4096
  bcast_S_S4096 : S_.BroadcastsInDim S4096 (![] : Fin 0 → Fin S4096.rank)
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S16384x4096_S16384x2048x2 : S16384x4096.ShapeCasts S16384x2048x2
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048 : Shape := ⟨1, ![2048]⟩
abbrev S_ : Shape := ⟨0, ![]⟩
abbrev S2048x1 : Shape := ⟨2, ![2048, 1]⟩
abbrev S16384x2048 : Shape := ⟨2, ![16384, 2048]⟩
abbrev S16384x2048x1 : Shape := ⟨3, ![16384, 2048, 1]⟩
abbrev S16384x2048x2 : Shape := ⟨3, ![16384, 2048, 2]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S16384x2048, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S16384x2048, .f32⟩
  | .hbm, ⟨21, _⟩ => ⟨S16384x2048x1, .f32⟩
  | .hbm, ⟨22, _⟩ => ⟨S16384x2048x1, .f32⟩
  | .hbm, ⟨23, _⟩ => ⟨S16384x2048x2, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S16384x2048_S16384x2048x1_0_1 : S16384x2048.BroadcastsInDim S16384x2048x1 (![0, 1] : Fin 2 → Fin S16384x2048x1.rank)
  concatenates_S16384x2048x1_S16384x2048x1_S16384x2048x2_d2 : Shape.Concatenates [S16384x2048x1, S16384x2048x1] S16384x2048x2 2
  gather_S16384x1024_S2048x1_S16384x2048_0_1_n_n_1_1_163841_wf : GatherDims.WF S16384x1024 S2048x1 S16384x2048 [0] [1] [] [1] [] 1 ![16384, 1]

variable [Facts₀]

def gather_S16384x1024_S2048x1_S16384x2048_0_1_n_n_1_1_163841 : GatherDims S16384x1024 S2048x1 S16384x2048 where
  offsetDims := [0]
  collapsedSliceDims := [1]
  operandBatchingDims := []
  startIndicesBatchingDims := []
  startIndexMap := [1]
  indexVectorDim := 1
  sliceSizes := ![16384, 1]
  wf := gather_S16384x1024_S2048x1_S16384x2048_0_1_n_n_1_1_163841_wf

class Facts : Prop extends Facts₀ where

variable [Facts]
-- ==== Proof.InputFacts.lean ====
/-
  What the precondition says of the inputs.

  The precondition is the conjunction of three "all entries" tests: every entry of the float matrix has absolute value
  below +∞, and every entry of either index vector is at least 0 as a signed integer. Read entry by entry: every entry
  of the matrix is a real number (neither infinity), and every index word is non-negative.
-/
import proofs.«409843_j86277303042728_3_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.InputFacts

open Idealize.ShloMosaic Cert.Pre_finite_inputs

variable [Cert.Pre_finite_inputs.Facts]

instance : Subsingleton S_.Idx := ⟨fun a b => funext fun d => d.elim0⟩

/-- An extended real whose absolute value compares below the word of +∞ is a real number. -/
theorem real_of_abs_lt_top (a : EReal)
    (e : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at e
  unfold Ideal.cmp at e
  have hlt : max a (-a) < ⊤ := by
    by_contra hn
    simp [hn] at e
  induction a using EReal.rec with
  | bot => simp at hlt
  | top => simp at hlt
  | coe r => exact ⟨r, rfl⟩

/-- A word that compares signed-greater-or-equal to the zero word reads as a non-negative integer. -/
theorem nonneg_of_sge (v : BitVec 32) (e : IntOp.cmpi .sge v (0#32) = 1#1) : 0 ≤ v.toInt := by
  unfold IntOp.cmpi at e
  by_contra hn
  have : (0#32 : BitVec 32).sle v = false := by
    simp only [BitVec.sle, BitVec.toInt_zero, decide_eq_false_iff_not]; exact hn
  simp [this] at e

/-- THE PRECONDITION, ENTRY BY ENTRY: the matrix's entries are real numbers and the index words non-negative. -/
theorem of_pre (x : FVec Ideal S16384x1024 .f32) (iL iR : IVec S2048 32)
    (h : fn (F := Ideal) x iL iR = fun _ => 1#1) :
    (∀ i, ∃ r : ℝ, x i = (r : EReal)) ∧ (∀ j, 0 ≤ (iL j).toInt) ∧ (∀ j, 0 ≤ (iR j).toInt) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun j => ?_, fun j => ?_⟩
  · have e := Host.reduce_andi_all _ _ _ _ _ h1 i
    exact real_of_abs_lt_top (x i) e
  · exact nonneg_of_sge (iL j) (Host.reduce_andi_all _ _ _ _ _ h2 j)
  · exact nonneg_of_sge (iR j) (Host.reduce_andi_all _ _ _ _ _ h3 j)

end Cert.InputFacts

end
-- ==== Proof.ColumnSelect.lean ====
/-
  Selecting a column of a matrix, three ways.

  A 32-bit index word `v`, read as a signed integer, names the column `col v = min (max v 0) 1023` of a matrix with
  1024 columns. This file has the pure facts that identify three spellings of "row `n` at column `col v`":
  the clamp written with signed maximum and minimum and compared against a counter (a 0/1 selector entry),
  the sum over all columns of the row's entries times that selector, and the column a gather reads when it is
  given `v` as its start index. Nothing here mentions a program.
-/
import Idealize.ShloMosaic.PureOps.Ideal
import Idealize.ShloMosaic.PureOps.Ideal.Laws
import Idealize.ShloMosaic.Lib.ValueIdx

noncomputable section

open scoped BigOperators

namespace Cert.ColumnSelect

open Idealize.ShloMosaic Idealize.ShloMosaic.ValueIdx

/-- The column an index word names: the word read signed, negatives raised to 0, capped at 1023. -/
def col (v : BitVec 32) : Fin 1024 := ⟨min v.toInt.toNat 1023, by omega⟩

/-- For a non-negative word the signed clamp `min 1023 (max 0 v)` is the word of `col v`. -/
theorem clamp_eq (v : BitVec 32) (hv : 0 ≤ v.toInt) :
    IntOp.minsi (1023#32) (IntOp.maxsi (0#32) v) = BitVec.ofNat 32 (col v).val := by
  have h0 : v.slt (0#32) = false := by
    simp only [BitVec.slt, BitVec.toInt_zero, decide_eq_false_iff_not, not_lt]; exact hv
  have hmax : IntOp.maxsi (0#32) v = v := by
    unfold IntOp.maxsi; rw [h0]; rfl
  rw [hmax]
  unfold IntOp.minsi col
  have h1023 : (1023#32 : BitVec 32).toInt = 1023 := by decide
  have hnat : v.toInt = (v.toNat : Int) := by
    rw [BitVec.toInt_eq_toNat_cond] at hv ⊢
    split at hv <;> rename_i h
    · rw [if_pos h]
    · exfalso; have := v.isLt; omega
  by_cases hlt : (1023#32 : BitVec 32).slt v = true
  · rw [if_pos hlt]
    have : (1023 : Int) < v.toInt := by
      simpa only [BitVec.slt, h1023, decide_eq_true_eq] using hlt
    apply BitVec.eq_of_toNat_eq
    simp only [BitVec.toNat_ofNat]
    omega
  · rw [if_neg hlt]
    have : ¬ (1023 : Int) < v.toInt := by
      simpa only [BitVec.slt, h1023, decide_eq_true_eq] using hlt
    apply BitVec.eq_of_toNat_eq
    simp only [BitVec.toNat_ofNat]
    have := v.isLt
    omega

/-- THE SELECTOR ENTRY: the counter `b` compared for equality with the clamp of a non-negative word, converted to a
    float, is 1 at `b = col v` and 0 elsewhere. -/
theorem selector_entry (v : BitVec 32) (hv : 0 ≤ v.toInt) (b : Fin 1024) :
    (FloatOps.uitofp (F := Ideal) .bf16
        (IntOp.cmpi .eq (BitVec.ofNat 32 b.val) (IntOp.minsi (1023#32) (IntOp.maxsi (0#32) v))) : EReal)
      = if b = col v then (1 : EReal) else 0 := by
  rw [clamp_eq v hv]
  show (((IntOp.cmpi .eq (BitVec.ofNat 32 b.val) (BitVec.ofNat 32 (col v).val)).toNat : ℝ) : EReal) = _
  unfold IntOp.cmpi
  by_cases h : b = col v
  · subst h; simp
  · rw [if_neg h]
    have hne : (BitVec.ofNat 32 b.val == BitVec.ofNat 32 (col v).val) = false := by
      rw [beq_eq_false_iff_ne]
      intro e
      apply h
      apply Fin.ext
      have e' := congrArg BitVec.toNat e
      simp only [BitVec.toNat_ofNat] at e'
      have hb := b.isLt
      have hc := (col v).isLt
      omega
    simp [hne]

/-- A real number less itself is zero on the extended reals. -/
theorem sub_self_of_real {a : EReal} (h : ∃ r : ℝ, a = (r : EReal)) : a - a = 0 := by
  obtain ⟨r, rfl⟩ := h
  rw [← EReal.coe_sub, sub_self, EReal.coe_zero]

/-- THE SELECTING SUM: a row of real entries times a 0/1 selector of column `c`, summed over the columns, plus the
    same sum of the entries' differences with themselves (all zero), is the row's entry at `c`. -/
theorem row_select (a e : Fin 1024 → EReal) (c : Fin 1024) (hfin : ∀ k, ∃ r : ℝ, a k = (r : EReal))
    (he : ∀ k, e k = if k = c then (1 : EReal) else 0) :
    (∑ k : Fin 1024, a k * e k) + ∑ k : Fin 1024, (a k - a k) * e k = a c := by
  have h2 : ∑ k : Fin 1024, (a k - a k) * e k = 0 :=
    Finset.sum_eq_zero fun k _ => by rw [sub_self_of_real (hfin k), zero_mul]
  have h1 : ∑ k : Fin 1024, a k * e k = a c := by
    rw [Finset.sum_eq_single c]
    · rw [he c, if_pos rfl, mul_one]
    · intro k _ hk; rw [he k, if_neg hk, mul_zero]
    · intro hc; exact absurd (Finset.mem_univ c) hc
  rw [h1, h2, add_zero]

/-- A non-negative index word is left alone by the wrap "if v < 0 then v + 1024 else v". -/
theorem wrap_nonneg (v : BitVec 32) (hv : 0 ≤ v.toInt) :
    Scalar.select (IntOp.cmpi .slt v (0#32)) (IntOp.addi v (1024#32)) v = v := by
  have h0 : v.slt (0#32) = false := by
    simp only [BitVec.slt, BitVec.toInt_zero, decide_eq_false_iff_not, not_lt]; exact hv
  unfold IntOp.cmpi
  simp only [h0]
  exact select_zero _ _

/-! ## The result both programs compute -/

/-- Entry (n, s, h) of the result: row `n` of the matrix at the column named by the left index vector's entry `s`
    (h = 0) or the right one's (h = 1). -/
def pick (x : (⟨2, ![16384, 1024]⟩ : Shape).Idx → EReal) (iL iR : (⟨1, ![2048]⟩ : Shape).Idx → BitVec 32)
    (n : Fin 16384) (s : Fin 2048) (h : Fin 2) : EReal :=
  x (ix2 n (col (if h.val = 0 then iL (ix1 s) else iR (ix1 s))))

/-- THE RESULT, a `[16384, 2048, 2]` array: for every row, the pair of entries at the two columns each position names. -/
def pairColumns (x : (⟨2, ![16384, 1024]⟩ : Shape).Idx → EReal) (iL iR : (⟨1, ![2048]⟩ : Shape).Idx → BitVec 32) :
    (⟨3, ![16384, 2048, 2]⟩ : Shape).Idx → EReal :=
  fun i => pick x iL iR (i 0) (i 1) (i 2)

/-! ## A gather of whole columns -/

/-- The dimension numbers of a gather of whole columns: operand `[R, K]`, start indices `[S, 1]`, result `[R, S]`;
    the result's axis 0 runs along the slice (a whole column), the operand's axis 1 is collapsed and is the axis the
    start index names. -/
abbrev colDims (R K S : Nat)
    (wf : GatherDims.WF ⟨2, ![R, K]⟩ ⟨2, ![S, 1]⟩ ⟨2, ![R, S]⟩ [0] [1] [] [1] [] 1 ![R, 1]) :
    GatherDims ⟨2, ![R, K]⟩ ⟨2, ![S, 1]⟩ ⟨2, ![R, S]⟩ where
  offsetDims := [0]
  collapsedSliceDims := [1]
  operandBatchingDims := []
  startIndicesBatchingDims := []
  startIndexMap := [1]
  indexVectorDim := 1
  sliceSizes := ![R, 1]
  wf := wf

/-- The column gather read at (n, s), for those dimension numbers. -/
theorem colDims_apply {α : Type} {R K S w : Nat} (hK : 0 < K)
    (wf : GatherDims.WF ⟨2, ![R, K]⟩ ⟨2, ![S, 1]⟩ ⟨2, ![R, S]⟩ [0] [1] [] [1] [] 1 ![R, 1])
    (x : (⟨2, ![R, K]⟩ : Shape).Idx → α) (idx : IVec ⟨2, ![S, 1]⟩ w) (n : Fin R) (s : Fin S) :
    Host.gather (colDims R K S wf) x idx (ix2 n s)
      = x (ix2 n ⟨min (idx (ix2 s (0 : Fin 1))).toInt.toNat (K - 1), by omega⟩) := by
  unfold Host.gather
  congr 1
  funext a
  refine Fin.ext ?_
  match a with
  | ⟨0, _⟩ =>
    show (colDims R K S wf).start (ix2 n s) idx 0 + (colDims R K S wf).batchCoord (ix2 n s) 0
      + (colDims R K S wf).offCoord (ix2 n s) 0 = n.val
    rw [GatherDims.batchCoord_eq_zero _ _ _ List.not_mem_nil]
    unfold GatherDims.start
    rw [dif_neg (fun h => absurd (congrArg Fin.val (List.mem_singleton.mp h)) Nat.zero_ne_one)]
    unfold GatherDims.offCoord
    rw [dif_pos ((GatherDims.mem_sKept _ _).mpr
      ⟨fun h => absurd (congrArg Fin.val (List.mem_singleton.mp h)) Nat.zero_ne_one, List.not_mem_nil⟩)]
    have hk : (colDims R K S wf).sKept = [0] := rfl
    simp only [hk, List.idxOf_cons_self]
    show 0 + 0 + (ix2 n s 0).val = n.val
    simp only [Nat.zero_add]
    rfl
  | ⟨1, _⟩ =>
    show (colDims R K S wf).start (ix2 n s) idx 1 + (colDims R K S wf).batchCoord (ix2 n s) 1
      + (colDims R K S wf).offCoord (ix2 n s) 1 = min (idx (ix2 s (0 : Fin 1))).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R K S wf).startIndexMap from List.mem_singleton.mpr rfl)]
    have hsi : (colDims R K S wf).siIdx (ix2 n s) ⟨List.idxOf (1 : Fin 2) (colDims R K S wf).startIndexMap,
        List.idxOf_lt_length_iff.2 (List.mem_singleton.mpr rfl)⟩ = ix2 s (0 : Fin 1) := by
      funext b
      refine Fin.ext ?_
      match b with
      | ⟨0, _⟩ => rfl
      | ⟨1, _⟩ => rfl
    rw [hsi]
    rfl

/-- THE COLUMN GATHER READ AT (n, s): for any dimension-numbers record whose lists are those of a gather of whole
    columns, the element is the operand's row `n` at the start index `idx[s, 0]` read signed and clamped into
    `[0, K − 1]`. -/
theorem gather_col_apply {α : Type} {R K S w : Nat} (hK : 0 < K)
    (d : GatherDims ⟨2, ![R, K]⟩ ⟨2, ![S, 1]⟩ ⟨2, ![R, S]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![R, 1])
    (x : (⟨2, ![R, K]⟩ : Shape).Idx → α) (idx : IVec ⟨2, ![S, 1]⟩ w) (n : Fin R) (s : Fin S) :
    Host.gather d x idx (ix2 n s) = x (ix2 n ⟨min (idx (ix2 s (0 : Fin 1))).toInt.toNat (K - 1), by omega⟩) := by
  cases d with
  | mk od cd ob sb sm iv ss wf =>
    simp only at h1 h2 h3 h4 h5 h6 h7
    subst h1 h2 h3 h4 h5 h6 h7
    exact colDims_apply hK wf x idx n s

end Cert.ColumnSelect

end
-- ==== Proof.RefValue.lean ====
/-
  The reference's result, entry by entry.

  The reference normalises each index word ("if v < 0 then v + 1024 else v"), gathers whole columns of the matrix at the
  left index vector and at the right one (a gather clamps its start index into the matrix), and joins the two gathered
  arrays along a new last axis. For non-negative index words the normalisation does nothing, so entry (n, s, h) is row
  `n` at the column `min v 1023` for `v` the left (h = 0) or right (h = 1) index word at `s`.
-/
import proofs.«409843_j86277303042728_3_alg».proof.Proof.Gen.ReferenceIdeal.Read
import proofs.«409843_j86277303042728_3_alg».proof.Proof.ColumnSelect
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.ColumnSelect

/-- The normalised index vector at `s`, for a non-negative word there: the word itself. -/
theorem normalised_left (x1 : IVec S2048 32) (s : Fin 2048) (h : 0 ≤ (x1 (ix1 s)).toInt) :
    val_main_v5 (F := Ideal) x1 (ix2 s (0 : Fin 1)) = x1 (ix1 s) := by
  rw [val_main_v5_apply, val_main_v4_apply, val_main_v1_apply, val_main_v3_apply, val_main_v0_apply, val_main_v2_apply,
    val_main_c_apply, val_main_c_0_apply]
  have e : idx_main_v5 (ix2 s (0 : Fin 1)) = ix1 s := by
    funext a; match a with | ⟨0, _⟩ => rfl
  rw [e]
  exact wrap_nonneg _ h

theorem normalised_right (x2 : IVec S2048 32) (s : Fin 2048) (h : 0 ≤ (x2 (ix1 s)).toInt) :
    val_main_v12 (F := Ideal) x2 (ix2 s (0 : Fin 1)) = x2 (ix1 s) := by
  rw [val_main_v12_apply, val_main_v11_apply, val_main_v8_apply, val_main_v10_apply, val_main_v7_apply, val_main_v9_apply,
    val_main_c_1_apply, val_main_c_2_apply]
  have e : idx_main_v12 (ix2 s (0 : Fin 1)) = ix1 s := by
    funext a; match a with | ⟨0, _⟩ => rfl
  rw [e]
  exact wrap_nonneg _ h

/-- The reference's entry (n, s, 0): row `n` at the column the left index word at `s` names. -/
theorem left_entry (x0 : FVec Ideal S16384x1024 .f32) (x1 x2 : IVec S2048 32) (h1 : ∀ j, 0 ≤ (x1 j).toInt)
    (n : Fin 16384) (s : Fin 2048) :
    val_main_v16 (F := Ideal) x0 x1 x2 (ix3 n s (0 : Fin 2)) = x0 (ix2 n (col (x1 (ix1 s)))) := by
  unfold val_main_v16
  rw [concatenate_pair_apply_left (t := S16384x2048x2) (s₁ := S16384x2048x1) (s₂ := S16384x2048x1) (2 : Fin 3) _ _ _
    (ix3 n s (0 : Fin 2)) rfl (ix3 n s (0 : Fin 1))
    (fun b => match b with | ⟨0, _⟩ => rfl | ⟨1, _⟩ => rfl | ⟨2, _⟩ => rfl)]
  rw [val_main_v14_apply]
  have e : idx_main_v14 (ix3 n s (0 : Fin 1)) = ix2 n s := by
    funext a; match a with | ⟨0, _⟩ => rfl | ⟨1, _⟩ => rfl
  rw [e]
  unfold val_main_v6
  rw [gather_col_apply (by decide) _ rfl rfl rfl rfl rfl rfl rfl]
  refine congrArg (fun k => x0 (ix2 n k)) (Fin.ext ?_)
  show min (val_main_v5 (F := Ideal) x1 (ix2 s (0 : Fin 1))).toInt.toNat (1024 - 1) = (col (x1 (ix1 s))).val
  rw [normalised_left x1 s (h1 _)]
  rfl

/-- The reference's entry (n, s, 1): row `n` at the column the right index word at `s` names. -/
theorem right_entry (x0 : FVec Ideal S16384x1024 .f32) (x1 x2 : IVec S2048 32) (h2 : ∀ j, 0 ≤ (x2 j).toInt)
    (n : Fin 16384) (s : Fin 2048) :
    val_main_v16 (F := Ideal) x0 x1 x2 (ix3 n s (1 : Fin 2)) = x0 (ix2 n (col (x2 (ix1 s)))) := by
  unfold val_main_v16
  rw [concatenate_pair_apply_right (t := S16384x2048x2) (s₁ := S16384x2048x1) (s₂ := S16384x2048x1) (2 : Fin 3) _ _ _
    (ix3 n s (1 : Fin 2)) rfl rfl (ix3 n s (0 : Fin 1))
    (fun b hb => match b, hb with | ⟨0, _⟩, _ => rfl | ⟨1, _⟩, _ => rfl | ⟨2, _⟩, hb => absurd rfl hb) rfl]
  rw [val_main_v15_apply]
  have e : idx_main_v15 (ix3 n s (0 : Fin 1)) = ix2 n s := by
    funext a; match a with | ⟨0, _⟩ => rfl | ⟨1, _⟩ => rfl
  rw [e]
  unfold val_main_v13
  rw [gather_col_apply (by decide) _ rfl rfl rfl rfl rfl rfl rfl]
  refine congrArg (fun k => x0 (ix2 n k)) (Fin.ext ?_)
  show min (val_main_v12 (F := Ideal) x2 (ix2 s (0 : Fin 1))).toInt.toNat (1024 - 1) = (col (x2 (ix1 s))).val
  rw [normalised_right x2 s (h2 _)]
  rfl

/-- THE REFERENCE'S RESULT is the pair of selected columns, for non-negative index words. -/
theorem result_eq (x0 : FVec Ideal S16384x1024 .f32) (x1 x2 : IVec S2048 32)
    (h1 : ∀ j, 0 ≤ (x1 j).toInt) (h2 : ∀ j, 0 ≤ (x2 j).toInt) :
    val_main_v16 (F := Ideal) x0 x1 x2 = pairColumns x0 x1 x2 := by
  funext i
  obtain ⟨n, s, h, rfl⟩ : ∃ (n : Fin 16384) (s : Fin 2048) (h : Fin 2), i = ix3 n s h := ⟨i 0, i 1, i 2, eq_ix3 i⟩
  have hh : h = 0 ∨ h = 1 := by
    rcases h with ⟨v, hv⟩
    rcases v with _ | _ | v
    · exact Or.inl rfl
    · exact Or.inr rfl
    · omega
  rcases hh with rfl | rfl
  · exact (left_entry x0 x1 x2 h1 n s).trans rfl
  · exact (right_entry x0 x1 x2 h2 n s).trans rfl

end Cert.ReferenceIdeal.RefValue

end
-- ==== Proof.Selector.lean ====
/-
  The selector matrix the kernel's host code builds, entry by entry.

  The host code interleaves the two index vectors (position 2s + h holds the left word at `s` for h = 0, the right
  one for h = 1), clamps every word into [0, 1023] with a signed maximum and minimum, and compares the result, along
  the columns, with a counter running down the rows: entry (b, j) is 1 where `b` equals the clamped word at `j` and 0
  elsewhere.
-/
import proofs.«409843_j86277303042728_3_alg».proof.Proof.Gen.KernelIdeal
import proofs.«409843_j86277303042728_3_alg».proof.Proof.ColumnSelect
import Idealize.ShloMosaic.Lib.Pipeline.Value
import Idealize.ShloMosaic.Lib.ValueIdx

noncomputable section

namespace Cert.KernelIdeal.Selector

open Cert.KernelIdeal Cert.KernelIdeal.Gen
open Idealize.ShloMosaic Idealize.ShloMosaic.ValueIdx Cert.ColumnSelect

/-- The two index vectors interleaved: a `[2048, 2]` array of (left, right) pairs read as one vector of 4096 words. -/
def interleaved (iL iR : IVec S2048 32) : IVec S4096 32 :=
  shapeCast S4096
    (concatenate S2048x2 1
      [⟨S2048x1, broadcastInDim S2048x1 ![0] bcast_S2048_S2048x1_0 iL⟩,
        ⟨S2048x1, broadcastInDim S2048x1 ![0] bcast_S2048_S2048x1_0 iR⟩]
      concatenates_S2048x1_S2048x1_S2048x2_d1)
    shapeCasts_S2048x2_S4096

/-- An index vector seen as a column `[2048, 1]` reads the vector at the row. -/
theorem column_apply (v : IVec S2048 32) (s : Fin 2048) :
    broadcastInDim S2048x1 ![0] bcast_S2048_S2048x1_0 v (ix2 s (0 : Fin 1)) = v (ix1 s) :=
  broadcastInDim_apply _ bcast_S2048_S2048x1_0 v (ix2 s (0 : Fin 1)) (ix1 s) (fun a => match a with
    | ⟨0, _⟩ => by show s.val = if (2048 : Nat) = 1 then 0 else s.val; rw [if_neg (by decide)])

/-- Position 2s + h of the interleaved vector is the left word at `s` (h = 0) or the right one (h = 1). -/
theorem interleaved_apply (iL iR : IVec S2048 32) (s : Fin 2048) (h : Fin 2) (j : Fin 4096) (hj : j.val = 2 * s.val + h.val) :
    interleaved iL iR (ix1 j) = if h.val = 0 then iL (ix1 s) else iR (ix1 s) := by
  unfold interleaved
  rw [shapeCast_apply _ shapeCasts_S2048x2_S4096 (ix1 j) (ix2 s h) (by
    rw [Shape.rowMajor_val_two, Shape.rowMajor_val_one]
    show s.val * 2 + h.val = j.val
    omega)]
  have hh : h = 0 ∨ h = 1 := by
    rcases h with ⟨v, hv⟩
    rcases v with _ | _ | v
    · exact Or.inl rfl
    · exact Or.inr rfl
    · omega
  rcases hh with rfl | rfl
  · rw [concatenate_pair_apply_left (t := S2048x2) (s₁ := S2048x1) (s₂ := S2048x1) (1 : Fin 2) _ _ _
      (ix2 s (0 : Fin 2)) rfl (ix2 s (0 : Fin 1)) (fun b => match b with | ⟨0, _⟩ => rfl | ⟨1, _⟩ => rfl)]
    rw [column_apply]
    rfl
  · rw [concatenate_pair_apply_right (t := S2048x2) (s₁ := S2048x1) (s₂ := S2048x1) (1 : Fin 2) _ _ _
      (ix2 s (1 : Fin 2)) rfl rfl (ix2 s (0 : Fin 1))
      (fun b hb => match b, hb with | ⟨0, _⟩, _ => rfl | ⟨1, _⟩, hb => absurd rfl hb) rfl]
    rw [column_apply]
    rfl

/-- The selector matrix `[1024, 4096]` as the host operations spell it. -/
def selector (iL iR : IVec S2048 32) : FVec Ideal S1024x4096 .bf16 :=
  uitofp .bf16 (cmpi .eq
    (broadcastInDim S1024x4096 ![0, 1] bcast_S1024x1_S1024x4096_0_1
      (broadcastInDim S1024x1 ![0] bcast_S1024_S1024x1_0 (iotaInDim S1024 32 0)))
    (broadcastInDim S1024x4096 ![0, 1] bcast_S1x4096_S1024x4096_0_1
      (broadcastInDim S1x4096 ![1] bcast_S4096_S1x4096_1
        (minsi (broadcastInDim S4096 ![] bcast_S_S4096 (constantI S_ 32 1023#32))
          (maxsi (broadcastInDim S4096 ![] bcast_S_S4096 (constantI S_ 32 0#32)) (interleaved iL iR))))))

/-- The row counter, spread over the columns, reads the row's number. -/
theorem counter_apply (b : Fin 1024) (j : Fin 4096) :
    broadcastInDim S1024x4096 ![0, 1] bcast_S1024x1_S1024x4096_0_1
      (broadcastInDim S1024x1 ![0] bcast_S1024_S1024x1_0 (iotaInDim S1024 32 0)) (ix2 b j) = BitVec.ofNat 32 b.val := by
  rw [broadcastInDim_apply _ bcast_S1024x1_S1024x4096_0_1 _ (ix2 b j) (ix2 b (0 : Fin 1)) (fun a => match a with
    | ⟨0, _⟩ => by show b.val = if (1024 : Nat) = 1 then 0 else b.val; rw [if_neg (by decide)]
    | ⟨1, _⟩ => by show (0 : Nat) = if (1 : Nat) = 1 then 0 else j.val; rw [if_pos rfl])]
  rw [broadcastInDim_apply _ bcast_S1024_S1024x1_0 _ (ix2 b (0 : Fin 1)) (ix1 b) (fun a => match a with
    | ⟨0, _⟩ => by show b.val = if (1024 : Nat) = 1 then 0 else b.val; rw [if_neg (by decide)])]
  rfl

/-- A vector of 4096 words, spread over the rows, reads the word at the column. -/
theorem spread_apply (v : IVec S4096 32) (b : Fin 1024) (j : Fin 4096) :
    broadcastInDim S1024x4096 ![0, 1] bcast_S1x4096_S1024x4096_0_1
      (broadcastInDim S1x4096 ![1] bcast_S4096_S1x4096_1 v) (ix2 b j) = v (ix1 j) := by
  rw [broadcastInDim_apply _ bcast_S1x4096_S1024x4096_0_1 _ (ix2 b j) (ix2 (0 : Fin 1) j) (fun a => match a with
    | ⟨0, _⟩ => by show (0 : Nat) = if (1 : Nat) = 1 then 0 else b.val; rw [if_pos rfl]
    | ⟨1, _⟩ => by show j.val = if (4096 : Nat) = 1 then 0 else j.val; rw [if_neg (by decide)])]
  rw [broadcastInDim_apply _ bcast_S4096_S1x4096_1 _ (ix2 (0 : Fin 1) j) (ix1 j) (fun a => match a with
    | ⟨0, _⟩ => by show j.val = if (4096 : Nat) = 1 then 0 else j.val; rw [if_neg (by decide)])]

/-- A scalar word spread over 4096 positions reads the word. -/
theorem splat_apply (w : BitVec 32) (j : Fin 4096) :
    broadcastInDim S4096 ![] bcast_S_S4096 (constantI S_ 32 w) (ix1 j) = w := by
  rw [broadcastInDim_apply _ bcast_S_S4096 _ (ix1 j) ix0 (fun a => a.elim0)]
  rfl

/-- THE SELECTOR AT (b, j): the counter `b` compared with the clamp of the interleaved word at `j`, as a float. -/
theorem selector_apply (iL iR : IVec S2048 32) (b : Fin 1024) (j : Fin 4096) :
    selector iL iR (ix2 b j)
      = FloatOps.uitofp (F := Ideal) .bf16
          (IntOp.cmpi .eq (BitVec.ofNat 32 b.val)
            (IntOp.minsi (1023#32) (IntOp.maxsi (0#32) (interleaved iL iR (ix1 j))))) := by
  show FloatOps.uitofp (F := Ideal) .bf16 (IntOp.cmpi .eq (_ : BitVec 32) (_ : BitVec 32)) = _
  rw [counter_apply, spread_apply]
  show FloatOps.uitofp (F := Ideal) .bf16 (IntOp.cmpi .eq _ (IntOp.minsi (_ : BitVec 32) (IntOp.maxsi (_ : BitVec 32) _))) = _
  rw [splat_apply, splat_apply]

/-- THE SELECTOR AT (b, 2s + h), for non-negative index words: 1 where `b` is the column the word names, else 0. -/
theorem selector_entry_at (iL iR : IVec S2048 32) (hL : ∀ j, 0 ≤ (iL j).toInt) (hR : ∀ j, 0 ≤ (iR j).toInt)
    (s : Fin 2048) (h : Fin 2) (j : Fin 4096) (hj : j.val = 2 * s.val + h.val) (b : Fin 1024) :
    (selector iL iR (ix2 b j) : EReal)
      = if b = col (if h.val = 0 then iL (ix1 s) else iR (ix1 s)) then (1 : EReal) else 0 := by
  rw [selector_apply, interleaved_apply iL iR s h j hj]
  refine Cert.ColumnSelect.selector_entry _ ?_ b
  split
  · exact hL _
  · exact hR _

end Cert.KernelIdeal.Selector

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KernelValue.lean ====
/-
  The kernel's result, as one function of its arguments.

  Every grid point multiplies a block of 256 rows of the matrix by the whole selector matrix, twice — once the rows
  themselves, once the rows less themselves — and adds the two products; the 64 row blocks tile the `[16384, 4096]`
  product, which the host code then reads as `[16384, 2048, 2]`. So entry (n, j) of the product is
  Σ_k x(n, k)·P(k, j) + Σ_k (x(n, k) − x(n, k))·P(k, j), with P the selector matrix built from the index vectors.
-/
import proofs.«409843_j86277303042728_3_alg».proof.Proof.Gen.KernelIdeal.Frame
import proofs.«409843_j86277303042728_3_alg».proof.Proof.Selector
import proofs.«409843_j86277303042728_3_alg».proof.Proof.LibDot
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.KValue

open Cert.KernelIdeal Cert.KernelIdeal.Gen Cert.KernelIdeal.Selector
open Idealize.ShloMosaic Idealize.ShloMosaic.TcCoe Idealize.SL.Sem Idealize.ShloMosaic.ValueIdx
open Idealize.ShloMosaic.Pipeline (Dat)

/-! ## One entry of the body's result -/

/-- Entry (n, j) of the two products added: the row's product with column `j` of `P`, plus the product of the row
    less itself with the same column. -/
def rowProduct (x : S16384x1024.Idx → EReal) (P : S1024x4096.Idx → EReal) (n : Fin 16384) (j : Fin 4096) : EReal :=
  (∑ k : Fin 1024, x (ix2 n k) * P (ix2 k j)) + ∑ k : Fin 1024, (x (ix2 n k) - x (ix2 n k)) * P (ix2 k j)

/-- The whole `[16384, 4096]` array of those entries. -/
def product (x : S16384x1024.Idx → EReal) (P : S1024x4096.Idx → EReal) : S16384x4096.Idx → EReal :=
  fun i => rowProduct x P (i 0) (i 1)

/-- The body's stored value at (p, q) of its block: both block products as plain sums over the 1024 columns. -/
theorem pay_apply (x0 : Vec Ideal S256x1024 .f32) (x1 : Vec Ideal S1024x4096 .bf16) (p : Fin 256) (q : Fin 4096) :
    k0_pay1 (F := Ideal) x0 x1 (ix2 p q)
      = (∑ k : Fin 1024, x0 (ix2 p k) * x1 (ix2 k q)) + ∑ k : Fin 1024, (x0 (ix2 p k) - x0 (ix2 p k)) * x1 (ix2 k q) := by
  unfold k0_pay1
  simp only [shapeCast_self]
  rw [addf_apply]
  show FloatOps.matmul _ _ _ _ _ (ix2 p q) + FloatOps.matmul _ _ _ _ _ (ix2 p q) = _
  rw [Cert.LibDot.matmul_rows_apply _ rfl rfl rfl rfl rfl rfl, Cert.LibDot.matmul_rows_apply _ rfl rfl rfl rfl rfl rfl]
  simp only [constant_apply, Ideal.ofBits_zero_f32, zero_add]
  rfl

/-- The stored value at (p, q) is entry (n, j) of the product of whole arrays of which the blocks are the rows
    `n − p … ` of the matrix and the whole selector. -/
theorem block_entry (xa : S16384x1024.Idx → EReal) (P : S1024x4096.Idx → EReal)
    (x0 : Vec Ideal S256x1024 .f32) (x1 : Vec Ideal S1024x4096 .bf16)
    (p : Fin 256) (q : Fin 4096) (n : Fin 16384) (j : Fin 4096)
    (h0 : ∀ k : Fin 1024, x0 (ix2 p k) = xa (ix2 n k)) (h1 : ∀ k : Fin 1024, x1 (ix2 k q) = P (ix2 k j)) :
    k0_pay1 (F := Ideal) x0 x1 (ix2 p q) = rowProduct xa P n j := by
  rw [pay_apply]
  unfold rowProduct
  simp only [h0, h1]

/-! ## The arrays the region finds -/

variable (m : (ℓ : Loc nD τ sig) → Buf (Elt Ideal) ℓ) (ρ : Dev nD → PrngReg)

/-- The selector array the region finds is the host operations' term of the two index vectors. -/
theorem V_selector (c : Dev nD) :
    (V m c main_v11 : S1024x4096.Idx → EReal)
      = selector (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results
  rfl

/-! ## The blocks at a grid point -/

theorem hz : (![0, 0] : Fin 2 → Nat) = fun _ => 0 := funext fun a => by fin_cases a <;> rfl

/-- The block indices over the 64 grid points: the matrix's row block is the output's, every other block index is 0,
    and the output's row block is one of 0 … 63. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every row block 0 … 63 is some grid point's. -/
theorem idx_onto : ∀ r : Fin 64, ∃ t : Fin cfg0.N, win0_2.index t = ![r.val, 0] :=
  (by decide +kernel : ∀ r : Fin 64, ∃ t : Fin grid0.N, win0_2.index t = ![r.val, 0])

/-- The matrix's block at point `t` holds the rows of the point's row block. -/
theorem xblk_apply (c : Dev nD) (t : Fin cfg0.N) (p : Fin 256) (k : Fin 1024) (n : Fin 16384)
    (hn : n.val = win0_2.index t (0 : Fin 2) * 256 + p.val) :
    (iblk m c 0 t : Vec Ideal S256x1024 .f32) (ix2 p k) = (V m c main_arg0 : S16384x1024.Idx → EReal) (ix2 n k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * p.val = n.val; rw [e0, hn]; omega
  | ⟨1, _⟩ => show win0_0.index t (1 : Fin 2) * 1024 + 1 * k.val = k.val; rw [e1]; omega

/-- The selector's block at every point is the whole selector. -/
theorem pblk_apply (c : Dev nD) (t : Fin cfg0.N) (k : Fin 1024) (q : Fin 4096) :
    (iblk m c 1 t : Vec Ideal S1024x4096 .bf16) (ix2 k q) = (V m c main_v11 : S1024x4096.Idx → EReal) (ix2 k q) := by
  obtain ⟨-, -, e2, e3, -⟩ := idx_facts t
  unfold iblk
  rw [View.read_apply]
  show V m c main_v11 _ = V m c main_v11 _
  congr 1
  funext a
  apply Fin.ext
  match a with
  | ⟨0, _⟩ => show win0_1.index t (0 : Fin 2) * 1024 + 1 * k.val = k.val; rw [e2]; omega
  | ⟨1, _⟩ => show win0_1.index t (1 : Fin 2) * 4096 + 1 * q.val = q.val; rw [e3]; omega

/-- WHAT POINT `t` WRITES BACK is its block of the product of the matrix and the selector as the region finds them. -/
theorem flushed_eq (c : Dev nD) (t : Fin cfg0.N) :
    (dats m 0 c).flushed 2 t
      = ((cfg0.win 2).blk t).view.read (Elt Ideal) (product (V m c main_arg0) (V m c main_v11)) := by
  show (cfg0.win 2).cut (grid0.coords t) ((dats m 0 c).after 2 t) = _
  rw [after0_2]
  unfold out0_2
  rw [View.canon_unit_zero hz]
  simp only [View.ld_unit_zero (S := S256x1024) hz, View.ld_unit_zero (S := S1024x4096) hz]
  obtain ⟨e0, e1, e2, e3, e4, e5⟩ := idx_facts t
  funext j
  obtain ⟨p, q, rfl⟩ : ∃ (p : Fin 256) (q : Fin 4096), j = ix2 p q := ⟨j 0, j 1, eq_ix2 j⟩
  rw [View.read_apply]
  have hn : win0_2.index t (0 : Fin 2) * 256 + p.val < 16384 := by have := p.isLt; omega
  have hemb : ((cfg0.win 2).blk t).view.emb (ix2 p q)
      = ix2 (⟨win0_2.index t (0 : Fin 2) * 256 + p.val, hn⟩ : Fin 16384) q := by
    funext a; apply Fin.ext
    match a with
    | ⟨0, _⟩ => show win0_2.index t (0 : Fin 2) * 256 + 1 * p.val = win0_2.index t (0 : Fin 2) * 256 + p.val; omega
    | ⟨1, _⟩ => show win0_2.index t (1 : Fin 2) * 4096 + 1 * q.val = q.val; rw [e4]; omega
  rw [hemb]
  exact block_entry _ _ _ _ p q _ q (fun k => xblk_apply m c t p k _ rfl) (fun k => pblk_apply m c t k q)

/-! ## The product array after the run -/

/-- An index of the product is in point `t`'s block iff each coordinate is in the block's range on its axis. -/
theorem mem_blk (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v12).slice (win0_2.rect t)).set ↔ _
  rw [View.set_slice_whole, Rect.mem_set_unit]
  exact Iff.rfl

/-- The 64 row blocks cover the product: row `r` is in the block of the point whose row block is `r / 256`. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- THE PRODUCT ARRAY after the run: the product of the matrix argument and the selector of the index arguments. -/
theorem final (c : Dev nD) :
    (dats m 0 c).arrAt 2 cfg0.N
      = product (m ((c : Thread nD τ).loc main_arg0))
          (selector (m ((c : Thread nD τ).loc main_arg1)) (m ((c : Thread nD τ).loc main_arg2))) := by
  rw [(dats m 0 c).arrAt_eq_of_cover 2 (product (V m c main_arg0) (V m c main_v11)) (fun t _ => flushed_eq m c t) cover,
    V_main_arg0, V_selector]

/-! ## The result -/

/-- The kernel's result: the product read as `[16384, 2048, 2]`. -/
def result (x : S16384x1024.Idx → EReal) (iL iR : IVec S2048 32) : S16384x2048x2.Idx → EReal :=
  shapeCast S16384x2048x2 (product x (selector iL iR)) shapeCasts_S16384x4096_S16384x2048x2

/-- The host operation after the region leaves the result buffer at `result` of the arguments. -/
theorem tail_eq (c : Dev nD) :
    Pipeline.afterTail₀ cfgs (dats m) 0 (V0 m) [hostOps1] c main_v13
      = result (m ((c : Thread nD τ).loc main_arg0)) (m ((c : Thread nD τ).loc main_arg1))
          (m ((c : Thread nD τ).loc main_arg2)) := by
  unfold Pipeline.afterTail₀
  show StableHlo.after hostOps1 _ (Proc.devRef .tc main_v13) = _
  after_results
  have hw := (Pipeline.withArrays_arr spec0 launch0.win.arr_inj c (V0 m c)
    (fun w => (dats m 0 c).arrAt w (cfgs 0).N) 2).trans (final m c)
  funext i
  unfold result
  rw [← hw]
  rfl

/-- THE KERNEL'S RUN, READ: every weakly fair execution ends with the result buffer at `result` of the arguments, and
    the arguments unchanged. -/
theorem run : θ_run defs (onTc (τ := τ) (main (F := Ideal))) ⟨m, fun _ => 0, ρ⟩ fun r => ∀ c : Dev nD,
      r.2.mem ((c.tc : Thread nD τ).loc main_v13)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.Bridge.lean ====
/-
  The two results are one.

  The kernel's result at (n, s, h) is entry (n, 2s + h) of the product of the matrix with the selector: the row's
  entries times a column that is 1 at the one position the index word names and 0 elsewhere, plus the same sum of the
  entries' differences with themselves. For real entries the differences vanish and the first sum picks out the one
  entry — the entry the reference gathers.
-/
import proofs.«409843_j86277303042728_3_alg».proof.Proof.KernelValue

noncomputable section

open scoped BigOperators

namespace Cert.KernelIdeal.KValue

open Cert.KernelIdeal Cert.KernelIdeal.Gen Cert.KernelIdeal.Selector
open Idealize.ShloMosaic Idealize.ShloMosaic.ValueIdx Cert.ColumnSelect

/-- THE KERNEL'S RESULT is the pair of selected columns, for real matrix entries and non-negative index words. -/
theorem result_eq (x : S16384x1024.Idx → EReal) (iL iR : IVec S2048 32)
    (hx : ∀ i, ∃ r : ℝ, x i = (r : EReal)) (hL : ∀ j, 0 ≤ (iL j).toInt) (hR : ∀ j, 0 ≤ (iR j).toInt) :
    result x iL iR = pairColumns x iL iR := by
  funext i
  obtain ⟨n, s, h, rfl⟩ : ∃ (n : Fin 16384) (s : Fin 2048) (h : Fin 2), i = ix3 n s h := ⟨i 0, i 1, i 2, eq_ix3 i⟩
  have hj : 2 * s.val + h.val < 4096 := by have := s.isLt; have := h.isLt; omega
  unfold result
  rw [shapeCast_apply _ shapeCasts_S16384x4096_S16384x2048x2 (ix3 n s h) (ix2 n (⟨2 * s.val + h.val, hj⟩ : Fin 4096)) (by
    rw [Shape.rowMajor_val_two, Shape.rowMajor_val_three]
    show n.val * 4096 + (2 * s.val + h.val) = (n.val * 2048 + s.val) * 2 + h.val
    omega)]
  show rowProduct x (selector iL iR) n ⟨2 * s.val + h.val, hj⟩ = pick x iL iR n s h
  unfold rowProduct pick
  exact row_select (fun k => x (ix2 n k)) (fun k => selector iL iR (ix2 k ⟨2 * s.val + h.val, hj⟩))
    (col (if h.val = 0 then iL (ix1 s) else iR (ix1 s))) (fun k => hx _)
    (fun k => selector_entry_at iL iR hL hR s h ⟨2 * s.val + h.val, hj⟩ rfl k)

end Cert.KernelIdeal.KValue

end
-- ==== Proof.lean ====
/-
  Selecting pairs of columns: a one-hot matrix product against a gather.

  The kernel builds, from the two index vectors, a 0/1 selector matrix whose column 2s + h has its single 1 in the row
  the index word at (s, h) names (the word clamped into [0, 1023]), multiplies the matrix by it block of rows by block
  of rows — the rows, and the rows less themselves, in two products added — and reads the `[16384, 4096]` product as
  `[16384, 2048, 2]`. The reference gathers whole columns at the left and at the right index vector (after the usual
  wrap of negative indices; a gather clamps its start index) and stacks the two.

  Under the precondition every matrix entry is a real number and every index word is non-negative. Then x − x = 0,
  so the second product vanishes; a row times a one-hot column is the row's entry at the 1; the wrap does nothing;
  and both clamps send a non-negative word `v` to `min v 1023`. Entry (n, s, h) of either result is row `n` of the
  matrix at that column.

  The frames of the two kernel programs are the generated ones, the reference's frame is its generated run; the
  idealization's one rewrite (a narrowing to bf16 followed by the widening back is the identity on exact values) is
  the rule's own statement.
-/
import proofs.«409843_j86277303042728_3_alg».proof.Defs
import proofs.«409843_j86277303042728_3_alg».proof.Proof.Gen.Kernel
import proofs.«409843_j86277303042728_3_alg».proof.Proof.Gen.Kernel.Skeleton
import proofs.«409843_j86277303042728_3_alg».proof.Proof.Gen.Kernel.Launch
import proofs.«409843_j86277303042728_3_alg».proof.Proof.Gen.Kernel.Points
import proofs.«409843_j86277303042728_3_alg».proof.Proof.Gen.Kernel.Frame
import proofs.«409843_j86277303042728_3_alg».proof.Proof.Gen.KernelIdeal
import proofs.«409843_j86277303042728_3_alg».proof.Proof.Gen.KernelIdeal.Skeleton
import proofs.«409843_j86277303042728_3_alg».proof.Proof.Gen.KernelIdeal.Launch
import proofs.«409843_j86277303042728_3_alg».proof.Proof.Gen.KernelIdeal.Points
import proofs.«409843_j86277303042728_3_alg».proof.Proof.Gen.KernelIdeal.Frame
import proofs.«409843_j86277303042728_3_alg».proof.Proof.Gen.ReferenceIdeal
import proofs.«409843_j86277303042728_3_alg».proof.Proof.Gen.ReferenceIdeal.Run
import proofs.«409843_j86277303042728_3_alg».proof.Proof.Gen.ReferenceIdeal.Read
import proofs.«409843_j86277303042728_3_alg».proof.Proof.Gen.Pre_finite_inputs
import proofs.«409843_j86277303042728_3_alg».proof.Proof.InputFacts
import proofs.«409843_j86277303042728_3_alg».proof.Proof.RefValue
import proofs.«409843_j86277303042728_3_alg».proof.Proof.Bridge
import Idealize.ShloMosaic.Adequacy
import Idealize.ShloMosaic.Init

noncomputable section

namespace Cert.Proof

open Idealize.ShloMosaic Idealize.SL.Sem

/-- The word-level kernel runs, without a fault, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: on exact values, narrowing to bf16 and widening back changes nothing. -/
theorem preserves : Cert.preserves_Kernel_KernelIdeal :=
  IdealRules.truncf_extf.statement Cert.KernelIdeal.S256x1024 .f32 .bf16

/-- Both idealized programs end with the pair of selected columns of the matrix: the kernel's product with the
    selector and the reference's two gathers are that one array, for real entries and non-negative index words. -/
theorem algebraic : Cert.algebraic_KernelIdeal_ReferenceIdeal := by
  intro m ρ m' ρ' hpre hagree
  refine ⟨fun c => Cert.ColumnSelect.pairColumns
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KValue.run m ρ)
    obtain ⟨hx, hL, hR⟩ := Cert.InputFacts.of_pre _ _ _ (hpre c)
    exact Cert.KernelIdeal.KValue.result_eq _ _ _ hx hL hR
  · refine (θ_run Cert.ReferenceIdeal.defs _ _).mono (fun _ h c => ⟨(h c).1.trans ?_, (h c).2⟩)
      (Cert.ReferenceIdeal.Value.run (F := Ideal) m' ρ')
    obtain ⟨hx, hL, hR⟩ := Cert.InputFacts.of_pre _ _ _ (hpre c)
    rw [Cert.ReferenceIdeal.Read.val_main_v16_eq, (hagree c).1, (hagree c).2.1, (hagree c).2.2]
    exact Cert.ReferenceIdeal.RefValue.result_eq _ _ _ hL hR

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
